-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000x1 : Shape := ⟨2, ![3200000, 1]⟩
abbrev S512x128 : Shape := ⟨2, ![512, 128]⟩
abbrev S100000 : Shape := ⟨1, ![100000]⟩
abbrev S192x128 : Shape := ⟨2, ![192, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S512x128 : S_.BroadcastsInDim S512x128 (![] : Fin 0 → Fin S512x128.rank)
  reducesTo_S512x128_S_d0_1 : S512x128.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg4 main_v34
  let main_c_13 : IVec S_ 1 := constantI S_ 1 1#1
  let main_v36 : IVec S_ 1 := (fun x v => Host.reduce IntOp.andi x v reducesTo_S100000_S_d0 h_S_) main_v35 main_c_13
  let main_v37 : IVec S_ 1 := andi main_v33 main_v36
  let main_c_14 : IVec S_ 32 := constantI S_ 32 512#32
  let main_v38 : IVec S100000 32 := broadcastInDim S100000 ![] bcast_S_S100000 main_c_14
  let main_v39 : IVec S100000 1 := cmpi .slt main_arg4 main_v38
  let main_c_15 : IVec S_ 1 := constantI S_ 1 1#1
  let main_v40 : IVec S_ 1 := (fun x v => Host.reduce IntOp.andi x v reducesTo_S100000_S_d0 h_S_) main_v39 main_c_15
  let main_v41 : IVec S_ 1 := andi main_v37 main_v40
  main_v41

def fn_part1 {F : FTy → Type} [FloatOps F] (main_arg4 : IVec S100000 32) (main_arg6 : FVec F S128 .f32) (main_arg7 : FVec F S192x128 .f32) (main_arg8 : FVec F S128 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S192x128 .f32 := Host.absf main_arg7
  let main_cst_8 : FVec F S_ .f32 := constant S_ .f32 0x7F800000#32
  let main_v25 : FVec F S192x128 .f32 := broadcastInDim S192x128 ![] bcast_S_S192x128 main_cst_8
  let main_v26 : IVec S192x128 1 := cmpf .olt main_v24 main_v25
  let main_c_9 : IVec S_ 1 := constantI S_ 1 1#1
  let main_v27 : IVec S_ 1 := (fun x v => Host.reduce IntOp.andi x v reducesTo_S192x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg4 main_v33

def fn {F : FTy → Type} [FloatOps F] (main_arg0 : FVec F S100000x64 .f32) (main_arg1 : IVec S2x3200000 32) (main_arg2 : FVec F S3200000x1 .f32) (main_arg3 : FVec F S512x128 .f32) (main_arg4 : IVec S100000 32) (main_arg5 : FVec F S192x128 .f32) (main_arg6 : FVec F S128 .f32) (main_arg7 : FVec F S192x128 .f32) (main_arg8 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S192x128 .f32 := Host.absf main_arg5
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg4 main_arg6 main_arg7 main_arg8 main_v13 main_v16
-- ==== Kernel.lean ====
abbrev S100000x64 : Shape := ⟨2, ![100000, 64]⟩
abbrev S2x3200000 : Shape := ⟨2, ![2, 3200000]⟩
abbrev S3200000x1 : Shape := ⟨2, ![3200000, 1]⟩
abbrev S512x128 : Shape := ⟨2, ![512, 128]⟩
abbrev S100000 : Shape := ⟨1, ![100000]⟩
abbrev S192x128 : Shape := ⟨2, ![192, 128]⟩
abbrev S128 : Shape := ⟨1, ![128]⟩
abbrev S1x3200000 : Shape := ⟨2, ![1, 3200000]⟩
abbrev S3200000 : Shape := ⟨1, ![3200000]⟩
abbrev S_ : Shape := ⟨0, ![]⟩
abbrev S3200000x64 : Shape := ⟨2, ![3200000, 64]⟩
abbrev S100000x1 : Shape := ⟨2, ![100000, 1]⟩
abbrev S64x128 : Shape := ⟨2, ![64, 128]⟩
abbrev S128x128 : Shape := ⟨2, ![128, 128]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S4000x512 : Shape := ⟨2, ![4000, 512]⟩

abbrev nBuf : Space → Nat
  | .hbm => 42
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000x1, .f32⟩
  | .hbm, ⟨3, _⟩ => ⟨S512x128, .f32⟩
  | .hbm, ⟨4, _⟩ => ⟨S100000, .i32⟩
  | .hbm, ⟨5, _⟩ => ⟨S192x128, .f32⟩
  | .hbm, ⟨6, _⟩ => ⟨S128, .f32⟩
  | .hbm, ⟨7, _⟩ => ⟨S192x128, .f32⟩
  | .hbm, ⟨8, _⟩ => ⟨S128, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S100000x64, .f32⟩
  | .hbm, ⟨26, _⟩ => ⟨S3200000x1, .i32⟩
  | .hbm, ⟨27, _⟩ => ⟨S100000x64, .f32⟩
  | .hbm, ⟨28, _⟩ => ⟨S100000x1, .i32⟩
  | .hbm, ⟨29, _⟩ => ⟨S512x128, .bf16⟩
  | .hbm, ⟨30, _⟩ => ⟨S64x128, .f32⟩
  | .hbm, ⟨31, _⟩ => ⟨S64x128, .bf16⟩
  | .hbm, ⟨32, _⟩ => ⟨S128x128, .f32⟩
  | .hbm, ⟨33, _⟩ => ⟨S128x128, .bf16⟩
  | .hbm, ⟨34, _⟩ => ⟨S64x128, .f32⟩
  | .hbm, ⟨35, _⟩ => ⟨S64x128, .bf16⟩
  | .hbm, ⟨36, _⟩ => ⟨S128x128, .f32⟩
  | .hbm, ⟨37, _⟩ => ⟨S128x128, .bf16⟩
  | .hbm, ⟨38, _⟩ => ⟨S1x128, .f32⟩
  | .hbm, ⟨39, _⟩ => ⟨S1x128, .f32⟩
  | .hbm, ⟨40, _⟩ => ⟨S100000x128, .f32⟩
  | .hbm, ⟨41, _⟩ => ⟨S100000x128, .f32⟩
  | .local _ .vmem, ⟨0, _⟩ => ⟨S4000x64, .f32⟩
  | .local _ .vmem, ⟨1, _⟩ => ⟨S4000x64, .f32⟩
  | .local _ .vmem, ⟨2, _⟩ => ⟨S4000x1, .i32⟩
  | .local _ .vmem, ⟨3, _⟩ => ⟨S4000x1, .i32⟩
  | .local _ .vmem, ⟨4, _⟩ => ⟨S512x128, .bf16⟩
  | .local _ .vmem, ⟨5, _⟩ => ⟨S64x128, .bf16⟩
  | .local _ .vmem, ⟨6, _⟩ => ⟨S128x128, .bf16⟩
  | .local _ .vmem, ⟨7, _⟩ => ⟨S64x128, .bf16⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  bitsLt_bf16_f32 : FTy.bits .bf16 < FTy.bits .f32
  slices_S192x128_S64x128_0_0 : S192x128.Slices ![0, 0] S64x128
  slices_S192x128_S128x128_64_0 : S192x128.Slices ![64, 0] S128x128
  shapeCasts_S128_S1x128 : S128.ShapeCasts S1x128
  iota_S4000x512_d1_w32 : S4000x512.Iotas .tc 32 [1]
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x512 : S4000x1.Broadcasts S4000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S4000x512_S512x128_S4000x128_1_0_0_1_n_n_wf : DotDims.WF S4000x512 S512x128 S4000x128 [1] [0] [0] [1] [] []
  dot_S4000x64_S64x128_S4000x128_1_0_0_1_n_n_wf : DotDims.WF S4000x64 S64x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .i32 = 32 ∨ (Rect.block (s := S100000x1) S4000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v15) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28_0) S4000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v28_1) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000x1 : Shape := ⟨2, ![3200000, 1]⟩
abbrev S512x128 : Shape := ⟨2, ![512, 128]⟩
abbrev S100000 : Shape := ⟨1, ![100000]⟩
abbrev S192x128 : Shape := ⟨2, ![192, 128]⟩
abbrev S128 : Shape := ⟨1, ![128]⟩
abbrev S1x3200000 : Shape := ⟨2, ![1, 3200000]⟩
abbrev S3200000 : Shape := ⟨1, ![3200000]⟩
abbrev S_ : Shape := ⟨0, ![]⟩
abbrev S3200000x64 : Shape := ⟨2, ![3200000, 64]⟩
abbrev S100000x1 : Shape := ⟨2, ![100000, 1]⟩
abbrev S100000x128 : Shape := ⟨2, ![100000, 128]⟩
abbrev S100000x192 : Shape := ⟨2, ![100000, 192]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000x1, .f32⟩
  | .hbm, ⟨3, _⟩ => ⟨S512x128, .f32⟩
  | .hbm, ⟨4, _⟩ => ⟨S100000, .i32⟩
  | .hbm, ⟨5, _⟩ => ⟨S192x128, .f32⟩
  | .hbm, ⟨6, _⟩ => ⟨S128, .f32⟩
  | .hbm, ⟨7, _⟩ => ⟨S192x128, .f32⟩
  | .hbm, ⟨8, _⟩ => ⟨S128, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x64, .f32⟩
  | .hbm, ⟨23, _⟩ => ⟨S3200000x64, .f32⟩
  | .hbm, ⟨24, _⟩ => ⟨S_, .f32⟩
  | .hbm, ⟨25, _⟩ => ⟨S100000x64, .f32⟩
  | .hbm, ⟨26, _⟩ => ⟨S3200000x1, .i32⟩
  | .hbm, ⟨27, _⟩ => ⟨S100000x64, .f32⟩
  | .hbm, ⟨28, _⟩ => ⟨S_, .i32⟩
  | .hbm, ⟨29, _⟩ => ⟨S100000, .i32⟩
  | .hbm, ⟨30, _⟩ => ⟨S100000, .i1⟩
  | .hbm, ⟨31, _⟩ => ⟨S_, .i32⟩
  | .hbm, ⟨32, _⟩ => ⟨S100000, .i32⟩
  | .hbm, ⟨33, _⟩ => ⟨S100000, .i32⟩
  | .hbm, ⟨34, _⟩ => ⟨S100000, .i32⟩
  | .hbm, ⟨35, _⟩ => ⟨S100000x1, .i32⟩
  | .hbm, ⟨36, _⟩ => ⟨S100000x128, .f32⟩
  | .hbm, ⟨37, _⟩ => ⟨S100000x192, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x128_S100000x192_d1 : Shape.Concatenates [S100000x64, S100000x128] S100000x192 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  gather_S512x128_S100000x1_S100000x128_1_0_n_n_0_1_1128_wf : GatherDims.WF S512x128 S100000x1 S100000x128 [1] [0] [] [0] [] 1 ![1, 128]
  dot_S100000x192_S192x128_S100000x128_1_0_0_1_n_n_wf : DotDims.WF S100000x192 S192x128 S100000x128 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.Range.lean ====
/-
  What the precondition says of the graph numbers.

  Beside the finiteness of the float inputs the precondition asks that every entry of batch be at least 0 and below 512,
  compared as signed 32-bit integers: two further "for all" conjuncts, each an and-reduction of an elementwise
  comparison.  A signed word in [0, 512) has its sign bit clear, so its unsigned value is the same number: every entry
  of batch, read as a natural number, is below 512, the number of rows of the table it indexes.
-/
import proofs.«422873_j24472723652617_2_alg».proof.Pre_finite_inputs
import Idealize.ShloMosaic.Lib.ReduceAll
import Idealize.ShloMosaic.Lib.ValueIdx

namespace Cert.Heads

open Idealize.ShloMosaic Idealize.ShloMosaic.ValueIdx

/-- A 32-bit word that is ≥ 0 and < 512 as a signed integer is < 512 as a natural number. -/
theorem toNat_lt_of_signed_range (w : BitVec 32) (h0 : IntOp.cmpi .sge w 0#32 = 1#1) (h1 : IntOp.cmpi .slt w 512#32 = 1#1) :
    w.toNat < 512 := by
  have a := IntOp.cmpi_sge.mp h0
  have b := IntOp.cmpi_slt.mp h1
  have z : (0#32 : BitVec 32).toInt = 0 := by decide
  have f : (512#32 : BitVec 32).toInt = 512 := by decide
  rw [z] at a
  rw [f] at b
  have hlt := w.isLt
  rw [BitVec.toInt_eq_toNat_cond] at a b
  by_cases hc : 2 * w.toNat < 2 ^ 32
  · rw [if_pos hc] at a b
    omega
  · rw [if_neg hc] at a b
    omega

/-- A scalar result has one index. -/
instance : Subsingleton Cert.Pre_finite_inputs.S_.Idx := ⟨fun a b => funext fun d => d.elim0⟩

section
open Cert.Pre_finite_inputs
variable [Cert.Pre_finite_inputs.Facts]

/-- THE PRECONDITION, READ AT ONE ENTRY OF batch: where the printed predicate is all ones, every entry of its fifth
    argument is below 512 as a natural number (the last two conjuncts: ≥ 0 and < 512, signed). -/
theorem batch_lt (x0 : FVec Ideal S100000x64 .f32) (x1 : IVec S2x3200000 32) (x2 : FVec Ideal S3200000x1 .f32)
    (x3 : FVec Ideal S512x128 .f32) (x4 : IVec S100000 32) (x5 : FVec Ideal S192x128 .f32) (x6 : FVec Ideal S128 .f32)
    (x7 : FVec Ideal S192x128 .f32) (x8 : FVec Ideal S128 .f32)
    (h : Cert.Pre_finite_inputs.fn (F := Ideal) x0 x1 x2 x3 x4 x5 x6 x7 x8 = fun _ => 1#1) (i : S100000.Idx) :
    (x4 i).toNat < 512 := by
  have e := congrFun h ix0
  dsimp only [Cert.Pre_finite_inputs.fn, Cert.Pre_finite_inputs.fn_part1, Cert.Pre_finite_inputs.fn_part2] at e
  obtain ⟨e1, e40⟩ := IntOp.andi_eq_one.mp e
  obtain ⟨-, e36⟩ := IntOp.andi_eq_one.mp e1
  have g0 := Host.reduce_andi_all _ _ _ _ _ e36 i
  have g1 := Host.reduce_andi_all _ _ _ _ _ e40 i
  exact toNat_lt_of_signed_range (x4 i) g0 g1

end

end Cert.Heads
-- ==== Proof.Spec.lean ====
/-
  The two linear heads of a graph-network node model, as one function of the arrays they read.

  For node n and output column j the head is

      (Σ_{k<64} agg[n,k] · W[k,j]  +  Σ_{k<128} ug[n,k] · W[64+k,j])  +  b[j],

  where agg is the per-node sum of scaled neighbour features and ug[n,·] is row batch[n] of the table u of per-graph features.
  Two ways of arriving at it meet here.  The contraction over the 192 rows of W splits into its first 64 and its last
  128 rows (a sum over a disjoint union), so a product with the row-wise concatenation [agg | ug] is the sum of the two
  partial products.  And a row of u taken by its number is the product of the table with the indicator row of that
  number: Σ_b [batch[n] = b] · u[b,k] has exactly one non-zero term.  Both are identities of sums in the extended reals that
  use only 0 · x = 0, 1 · x = x and the commutative-monoid laws of +, so no finiteness of the entries is needed.
-/
import Idealize.ShloMosaic.Lib.ValueIdx
import Idealize.ShloMosaic.Lib.StableHlo.Predicate

noncomputable section

namespace Cert.Heads

open Idealize.ShloMosaic Idealize.ShloMosaic.ValueIdx

/-- Row k of the first 64 rows of a 192-row matrix. -/
def lo (k : Fin 64) : Fin 192 := ⟨k.val, by omega⟩

/-- Row 64 + k of a 192-row matrix: row k of its last 128 rows. -/
def hi (k : Fin 128) : Fin 192 := ⟨64 + k.val, by omega⟩

/-- A sum over 192 indices is the sum over the first 64 plus the sum over the last 128. -/
theorem sum_split (f : Fin 192 → EReal) : ∑ k : Fin 192, f k = ∑ k : Fin 64, f (lo k) + ∑ k : Fin 128, f (hi k) :=
  Fin.sum_univ_add (M := EReal) (a := 64) (b := 128) f

/-- The row of the 512-row table a 32-bit word names: its value, held to the last row. -/
def rowOf (w : BitVec 32) : Fin 512 := ⟨min w.toNat 511, by omega⟩

theorem rowOf_val {w : BitVec 32} (hw : w.toNat < 512) : (rowOf w).val = w.toNat := by
  show min w.toNat 511 = w.toNat
  omega

/-- The rows of u named by batch: ug[n, k] = u[batch[n], k]. -/
def rowsOf (u : FVec Ideal ⟨2, ![512, 128]⟩ .f32) (batch : IVec ⟨1, ![100000]⟩ 32) : FVec Ideal ⟨2, ![100000, 128]⟩ .f32 :=
  fun j => u (ix2 (rowOf (batch (ix1 (j 0)))) (j 1))

/-- One linear head over the concatenated features [agg | ug], the contraction written as its two halves. -/
def head (agg : FVec Ideal ⟨2, ![100000, 64]⟩ .f32) (ug : FVec Ideal ⟨2, ![100000, 128]⟩ .f32)
    (W : FVec Ideal ⟨2, ![192, 128]⟩ .f32) (b : FVec Ideal ⟨1, ![128]⟩ .f32) : FVec Ideal ⟨2, ![100000, 128]⟩ .f32 :=
  fun j => (∑ k : Fin 64, agg (ix2 (j 0) k) * W (ix2 (lo k) (j 1)) + ∑ k : Fin 128, ug (ix2 (j 0) k) * W (ix2 (hi k) (j 1)))
    + b (ix1 (j 1))

/-- The head at node n and column q. -/
theorem head_apply (agg : FVec Ideal ⟨2, ![100000, 64]⟩ .f32) (ug : FVec Ideal ⟨2, ![100000, 128]⟩ .f32)
    (W : FVec Ideal ⟨2, ![192, 128]⟩ .f32) (b : FVec Ideal ⟨1, ![128]⟩ .f32) (n : Fin 100000) (q : Fin 128) :
    head agg ug W b (ix2 n q)
      = (∑ k : Fin 64, agg (ix2 n k) * W (ix2 (lo k) q) + ∑ k : Fin 128, ug (ix2 n k) * W (ix2 (hi k) q)) + b (ix1 q) := rfl

/-- The named rows of u at node n and column k. -/
theorem rowsOf_apply (u : FVec Ideal ⟨2, ![512, 128]⟩ .f32) (batch : IVec ⟨1, ![100000]⟩ 32) (n : Fin 100000) (k : Fin 128) :
    rowsOf u batch (ix2 n k) = u (ix2 (rowOf (batch (ix1 n))) k) := rfl

/-- The equality test of two words is the one-bit word 1 exactly when they are equal. -/
theorem cmpi_eq_one_iff {a b : BitVec 32} : IntOp.cmpi .eq a b = 1#1 ↔ a = b :=
  StableHlo.Predicate.cmpi_eq_iff

/-- THE INDICATOR ROW TAKES A ROW.  For a word w below 512, the sum over b of [w = b] · f b, the indicator written as a
    choice between two values that are one and zero, is f at w: every other term is 0 · f b = 0. -/
theorem indicator_sum (w : BitVec 32) (hw : w.toNat < 512) (f : Fin 512 → EReal) (one zero : EReal) (h1 : one = 1)
    (h0 : zero = 0) :
    ∑ b : Fin 512, Scalar.select (IntOp.cmpi .eq w (BitVec.ofNat 32 b.val)) one zero * f b = f ⟨w.toNat, hw⟩ := by
  subst h1 h0
  rw [Finset.sum_eq_single (⟨w.toNat, hw⟩ : Fin 512)]
  · have e : IntOp.cmpi .eq w (BitVec.ofNat 32 w.toNat) = 1#1 := cmpi_eq_one_iff.mpr (by simp)
    show Scalar.select (IntOp.cmpi .eq w (BitVec.ofNat 32 w.toNat)) (1 : EReal) 0 * _ = _
    rw [e, select_one, one_mul]
  · intro b _ hb
    have e : ¬ IntOp.cmpi .eq w (BitVec.ofNat 32 b.val) = 1#1 := by
      intro h
      have hw' : w = BitVec.ofNat 32 b.val := cmpi_eq_one_iff.mp h
      apply hb
      apply Fin.ext
      show b.val = w.toNat
      rw [hw', BitVec.toNat_ofNat]
      have := b.isLt
      omega
    rw [eq_zero_of_ne_one e, select_zero, zero_mul]
  · intro h; exact absurd (Finset.mem_univ _) h

end Cert.Heads

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Payload.lean ====
/-
  What the kernel body leaves in one output block, entry by entry.

  At a grid point the body holds a block x of 4000 rows of agg, the 4000 graph numbers g of those rows, the whole
  table u and, for one head, the two parts Wx (64 rows) and Wu (128 rows) of its weight matrix and its bias row b.  It
  forms the 4000 × 512 indicator matrix [g[p] = c], multiplies it into u, and stores

      (x · Wx + ([g = ·] · u) · Wu) + b.

  Over the extended reals the changes of float format are the identity and each product into a zero accumulator is
  the plain sum over the contracted axis.  The product of the indicator matrix with u is, at row p, row g[p] of u when
  g[p] < 512 (Spec: the indicator row takes a row).  So the entry at (p, q) is

      (Σ_{k<64} x[p,k] · Wx[k,q] + Σ_{k<128} u[g[p],k] · Wu[k,q]) + b[0,q].

  Both heads are this one function of their operands: the second head's payload unfolds to the same term as the first's.
-/
import proofs.«422873_j24472723652617_2_alg».proof.Proof.Gen.KernelIdeal.Skeleton
import proofs.«422873_j24472723652617_2_alg».proof.Proof.Spec
import proofs.«422873_j24472723652617_2_alg».proof.Proof.LibPlainMatmul
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Heads

open Cert.KernelIdeal Cert.KernelIdeal.Gen Idealize.ShloMosaic Idealize.ShloMosaic.ValueIdx

/-- The three products of the body are plain ones: rows by the contracted axis times the contracted axis by columns. -/
theorem dot512_eq : dot_S4000x512_S512x128_S4000x128_1_0_0_1_n_n = DotDims.plain 4000 512 128 := rfl
theorem dot64_eq : dot_S4000x64_S64x128_S4000x128_1_0_0_1_n_n = DotDims.plain 4000 64 128 := rfl
theorem dot128_eq : dot_S4000x128_S128x128_S4000x128_1_0_0_1_n_n = DotDims.plain 4000 128 128 := rfl

/-- A one-column array spread over 512 columns reads its one column everywhere. -/
theorem col_spread_apply (v : IVec S4000x1 32) (p : Fin 4000) (c : Fin 512) :
    broadcastTo S4000x512 v broadcasts_S4000x1_S4000x512 (ix2 p c) = v (ix2 p (0 : Fin 1)) := by
  refine broadcastTo_apply v broadcasts_S4000x1_S4000x512 (ix2 p c) (ix2 p (0 : Fin 1)) fun ax => ?_
  match ax with
  | ⟨0, _⟩ => rfl
  | ⟨1, _⟩ => rfl

/-- The indicator matrix times the table: row p of the product is row g[p] of the table, when g[p] < 512. -/
theorem rows_by_indicator (v1 : Vec Ideal S4000x1 .i32) (v9 : Vec Ideal S512x128 .bf16) (p : Fin 4000) (k : Fin 128)
    (hw : (v1 (ix2 p (0 : Fin 1))).toNat < 512) :
    k0_pay2 (F := Ideal) v1 v9 (ix2 p k) = v9 (ix2 ⟨(v1 (ix2 p (0 : Fin 1))).toNat, hw⟩ k) := by
  unfold k0_pay2
  simp only [shapeCast_self]
  rw [truncf_apply]
  simp only [matmul, dot512_eq]
  rw [Cert.PlainMatmul.apply]
  refine Eq.trans ?_ (Cert.Heads.indicator_sum (v1 (ix2 p (0 : Fin 1))) hw (fun b => v9 (ix2 b k))
    (Ideal.ofBits .f32 0x3F800000#32) (Ideal.ofBits .f32 0x00000000#32) Ideal.ofBits_one_f32 Ideal.ofBits_zero_f32)
  refine Finset.sum_congr rfl fun b _ => ?_
  rw [truncf_apply, select_apply, broadcast_apply, broadcast_apply]
  show Scalar.select (IntOp.cmpi .eq (broadcastTo S4000x512 v1 broadcasts_S4000x1_S4000x512 (ix2 p b))
    (iota .tc S4000x512 32 [1] iota_S4000x512_d1_w32 (ix2 p b))) _ _ * _ = _
  rw [col_spread_apply, iota_single_apply]
  rfl

/-- THE BLOCK'S ENTRY (p, q), for the first head's payload. -/
theorem pay4_apply (v1 : Vec Ideal S4000x1 .i32) (v9 : Vec Ideal S512x128 .bf16) (v13 : Vec Ideal S4000x64 .f32)
    (wx : Vec Ideal S64x128 .bf16) (wu : Vec Ideal S128x128 .bf16) (bb : Vec Ideal S1x128 .f32) (p : Fin 4000) (q : Fin 128)
    (hw : (v1 (ix2 p (0 : Fin 1))).toNat < 512) :
    k0_pay4 (F := Ideal) v1 v9 v13 wx wu bb (ix2 p q)
      = (∑ k : Fin 64, v13 (ix2 p k) * wx (ix2 k q)
          + ∑ k : Fin 128, v9 (ix2 ⟨(v1 (ix2 p (0 : Fin 1))).toNat, hw⟩ k) * wu (ix2 k q)) + bb (ix2 (0 : Fin 1) q) := by
  unfold k0_pay4
  simp only [shapeCast_self]
  rw [addf_apply, addf_apply, broadcastTo_1b_ab_apply]
  simp only [matmul, dot64_eq, dot128_eq]
  rw [Cert.PlainMatmul.apply, Cert.PlainMatmul.apply]
  congr 2
  · refine Finset.sum_congr rfl fun k _ => ?_
    unfold k0_pay3
    rw [truncf_apply, shapeCast_self]
  · refine Finset.sum_congr rfl fun k _ => ?_
    rw [rows_by_indicator v1 v9 p k hw]

/-- THE BLOCK'S ENTRY AS THE HEAD'S.  Let the body's operands be the blocks of the whole arrays that begin at row `row`: x0
    the 4000 rows of agg from there, x1 the graph numbers of those rows, x2 the table u, wx and wu the first 64 and the last
    128 rows of W, bb the bias as a row.  Then entry (p, q) of what the body stores is the head at (row + p, q). -/
theorem pay4_eq_head (x0 : Vec Ideal S4000x64 .f32) (x1 : Vec Ideal S4000x1 .i32) (x2 : Vec Ideal S512x128 .bf16)
    (wx : Vec Ideal S64x128 .bf16) (wu : Vec Ideal S128x128 .bf16) (bb : Vec Ideal S1x128 .f32)
    (agg : FVec Ideal ⟨2, ![100000, 64]⟩ .f32) (batch : IVec ⟨1, ![100000]⟩ 32) (u : FVec Ideal ⟨2, ![512, 128]⟩ .f32)
    (W : FVec Ideal ⟨2, ![192, 128]⟩ .f32) (b : FVec Ideal ⟨1, ![128]⟩ .f32)
    (row : ℕ) (hrow : row + 4000 ≤ 100000)
    (h0 : ∀ (p : Fin 4000) (k : Fin 64), x0 (ix2 p k) = agg (ix2 ⟨row + p.val, by have := p.isLt; omega⟩ k))
    (h1 : ∀ p : Fin 4000, x1 (ix2 p (0 : Fin 1)) = batch (ix1 ⟨row + p.val, by have := p.isLt; omega⟩))
    (h2 : ∀ (r : Fin 512) (k : Fin 128), x2 (ix2 r k) = u (ix2 r k))
    (h3 : ∀ (k : Fin 64) (q : Fin 128), wx (ix2 k q) = W (ix2 (Cert.Heads.lo k) q))
    (h4 : ∀ (k : Fin 128) (q : Fin 128), wu (ix2 k q) = W (ix2 (Cert.Heads.hi k) q))
    (h7 : ∀ q : Fin 128, bb (ix2 (0 : Fin 1) q) = b (ix1 q))
    (hb : ∀ i, (batch i).toNat < 512) (p : Fin 4000) (q : Fin 128) :
    k0_pay4 (F := Ideal) x1 x2 x0 wx wu bb (ix2 p q)
      = Cert.Heads.head agg (Cert.Heads.rowsOf u batch) W b (ix2 ⟨row + p.val, by have := p.isLt; omega⟩ q) := by
  have hw : (x1 (ix2 p (0 : Fin 1))).toNat < 512 := by rw [h1]; exact hb _
  rw [pay4_apply x1 x2 x0 wx wu bb p q hw]
  unfold Cert.Heads.head Cert.Heads.rowsOf
  refine congrArg₂ (· + ·) (congrArg₂ (· + ·) (Finset.sum_congr rfl fun k _ => ?_) (Finset.sum_congr rfl fun k _ => ?_)) ?_
  · rw [h0, h3]
  · rw [h2, h4]
    refine congrArg₂ (· * ·) (congrArg u ?_) rfl
    refine congrArg₂ ix2 (Fin.ext ?_) rfl
    show (x1 (ix2 p (0 : Fin 1))).toNat = (Cert.Heads.rowOf _).val
    rw [Cert.Heads.rowOf_val (hb _), h1]
  · exact h7 q

/-- The second head's payload is the same function of its operands. -/
theorem pay1_pay5_eq (v1 : Vec Ideal S4000x1 .i32) (v9 : Vec Ideal S512x128 .bf16) (v13 : Vec Ideal S4000x64 .f32)
    (wx : Vec Ideal S64x128 .bf16) (wu : Vec Ideal S128x128 .bf16) (bb : Vec Ideal S1x128 .f32) :
    k0_pay1 (F := Ideal) (k0_pay5 v1 v9 v13 wx wu) bb = k0_pay4 v1 v9 v13 wx wu bb := rfl

end Cert.KernelIdeal.Heads

end
-- ==== Proof.KernelBlocks.lean ====
/-
  The kernel's two result arrays are the linear heads.

  The launch cuts the 100000 rows into 25 blocks of 4000: grid point t reads rows 4000·t … 4000·t + 3999 of agg and of
  the column of graph numbers, reads u, the four weight parts and the two bias rows whole, and writes rows 4000·t … of
  each result.  What it writes at (p, q) is the head at (4000·t + p, q) (Payload), so the block point t writes back is
  block t of the head taken over the whole arrays; the 25 blocks cover every row, so each result array ends as the head.

  The arrays the region finds are what the host operations before it made of the arguments: the graph numbers as a
  column, u and the weight parts in the narrower float format (the same extended reals), W's rows 0…63 and 64…191 as
  two arrays, each bias as a one-row matrix.  agg is left as the host's term.
-/
import proofs.«422873_j24472723652617_2_alg».proof.Proof.Gen.KernelIdeal.Value
import proofs.«422873_j24472723652617_2_alg».proof.Proof.Payload
import proofs.«422873_j24472723652617_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Heads

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The column of graph numbers is batch reshaped. -/
theorem found_batch (c : Dev nD) : V m c (Pipeline.arrRef spec0 1) = shapeCast S100000x1 (m ((c : Thread nD τ).loc main_arg4)) shapeCasts_S100000_S100000x1 := by
  show (V m c main_v16 : S100000x1.Idx → BitVec 32) = _
  dsimp only [V, hostOps0]; after_results; rfl

/-- The table the kernel reads is u (in a narrower float format: the same extended reals). -/
theorem found_u (c : Dev nD) : V m c (Pipeline.arrRef spec0 2) = (m ((c : Thread nD τ).loc main_arg3) : S512x128.Idx → EReal) := by
  show (V m c main_v17 : S512x128.Idx → EReal) = _
  dsimp only [V, hostOps0]; after_results; rfl

/-- The first head's weight parts are rows 0…63 and rows 64…191 of W_K. -/
theorem found_wkx (c : Dev nD) : V m c (Pipeline.arrRef spec0 3) = extractStridedSlice S64x128 ![0, 0] (m ((c : Thread nD τ).loc main_arg5)) slices_S192x128_S64x128_0_0 := by
  show (V m c main_v19 : S64x128.Idx → EReal) = _
  dsimp only [V, hostOps0]; after_results; rfl

/-- Rows 64…191 of W_K. -/
theorem found_wku (c : Dev nD) : V m c (Pipeline.arrRef spec0 4) = extractStridedSlice S128x128 ![64, 0] (m ((c : Thread nD τ).loc main_arg5)) slices_S192x128_S128x128_64_0 := by
  show (V m c main_v21 : S128x128.Idx → EReal) = _
  dsimp only [V, hostOps0]; after_results; rfl

/-- The second head's: rows 0…63 of W_Q. -/
theorem found_wqx (c : Dev nD) : V m c (Pipeline.arrRef spec0 5) = extractStridedSlice S64x128 ![0, 0] (m ((c : Thread nD τ).loc main_arg7)) slices_S192x128_S64x128_0_0 := by
  show (V m c main_v23 : S64x128.Idx → EReal) = _
  dsimp only [V, hostOps0]; after_results; rfl

/-- Rows 64…191 of W_Q. -/
theorem found_wqu (c : Dev nD) : V m c (Pipeline.arrRef spec0 6) = extractStridedSlice S128x128 ![64, 0] (m ((c : Thread nD τ).loc main_arg7)) slices_S192x128_S128x128_64_0 := by
  show (V m c main_v25 : S128x128.Idx → EReal) = _
  dsimp only [V, hostOps0]; after_results; rfl

/-- Each bias is its vector as a one-row matrix. -/
theorem found_bk (c : Dev nD) : V m c (Pipeline.arrRef spec0 7) = shapeCast S1x128 (m ((c : Thread nD τ).loc main_arg6)) shapeCasts_S128_S1x128 := by
  show (V m c main_v26 : S1x128.Idx → EReal) = _
  dsimp only [V, hostOps0]; after_results; rfl

/-- The second bias. -/
theorem found_bq (c : Dev nD) : V m c (Pipeline.arrRef spec0 8) = shapeCast S1x128 (m ((c : Thread nD τ).loc main_arg8)) shapeCasts_S128_S1x128 := by
  show (V m c main_v27 : S1x128.Idx → EReal) = _
  dsimp only [V, hostOps0]; after_results; rfl

/-- Rows 0…63 of a 192-row matrix, read at (k, q). -/
theorem rows_lo_apply (W : S192x128.Idx → EReal) (k : Fin 64) (q : Fin 128) :
    extractStridedSlice S64x128 ![0, 0] W slices_S192x128_S64x128_0_0 (ix2 k q) = W (ix2 (Cert.Heads.lo k) q) :=
  extractStridedSlice_apply ![0, 0] W slices_S192x128_S64x128_0_0 (ix2 k q) (ix2 (Cert.Heads.lo k) q) (fun a => match a with
    | ⟨0, _⟩ => by show k.val = 0 + k.val; omega
    | ⟨1, _⟩ => by show q.val = 0 + q.val; omega)

/-- Rows 64…191, read at (k, q). -/
theorem rows_hi_apply (W : S192x128.Idx → EReal) (k : Fin 128) (q : Fin 128) :
    extractStridedSlice S128x128 ![64, 0] W slices_S192x128_S128x128_64_0 (ix2 k q) = W (ix2 (Cert.Heads.hi k) q) :=
  extractStridedSlice_apply ![64, 0] W slices_S192x128_S128x128_64_0 (ix2 k q) (ix2 (Cert.Heads.hi k) q) (fun a => match a with
    | ⟨0, _⟩ => by show 64 + k.val = 64 + k.val; rfl
    | ⟨1, _⟩ => by show q.val = 0 + q.val; omega)

/-- The graph-number column at row r is batch[r]. -/
theorem column_apply (x : S100000.Idx → BitVec 32) (r : Fin 100000) :
    shapeCast S100000x1 x shapeCasts_S100000_S100000x1 (ix2 r (0 : Fin 1)) = x (ix1 r) :=
  shapeCast_apply x shapeCasts_S100000_S100000x1 _ _ (by
    rw [Shape.rowMajor_val_two, Shape.rowMajor_val_one]
    show r.val = r.val * 1 + 0
    omega)

/-! ## The blocks: where a window's block at a point sits in its array -/

/-- The grid has 25 points. -/
theorem point_lt (t : Fin cfg0.N) : t.val < 25 := lt_of_lt_of_eq t.isLt N_0

/-- The printed index maps, decided over the 25 points: the row-blocked windows are at block row t, the others at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row r of window 0's block at point t is row 4000·t + r of its array (agg's rows). -/
theorem read_blk0 (c : Dev nD) (A : Buf (Elt Ideal) ((c : Thread nD τ).loc (Pipeline.arrRef spec0 0))) (t : Fin cfg0.N)
    (r : Fin 4000) (k : Fin 64) :
    ((cfg0.win 0).blk t).view.read (Elt Ideal) A (ix2 r k) = A (ix2 ⟨4000 * t.val + r.val, by have := point_lt t; have := r.isLt; omega⟩ k) := by
  show A (((cfg0.win 0).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_0.index t (0 : Fin 2) * 4000 + 1 * r.val = 4000 * t.val + r.val; omega
  | ⟨1, _⟩ => show win0_0.index t (1 : Fin 2) * 64 + 1 * k.val = k.val; omega

/-- Row r of window 1's block at point t is row 4000·t + r of its array (the graph numbers' column). -/
theorem read_blk1 (c : Dev nD) (A : Buf (Elt Ideal) ((c : Thread nD τ).loc (Pipeline.arrRef spec0 1))) (t : Fin cfg0.N)
    (r : Fin 4000) (k : Fin 1) :
    ((cfg0.win 1).blk t).view.read (Elt Ideal) A (ix2 r k) = A (ix2 ⟨4000 * t.val + r.val, by have := point_lt t; have := r.isLt; omega⟩ k) := by
  show A (((cfg0.win 1).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_1.index t (0 : Fin 2) * 4000 + 1 * r.val = 4000 * t.val + r.val; omega
  | ⟨1, _⟩ => show win0_1.index t (1 : Fin 2) * 1 + 1 * k.val = k.val; omega

/-- Window 2's block is its whole array (the table u) at every point. -/
theorem read_blk2 (c : Dev nD) (A : Buf (Elt Ideal) ((c : Thread nD τ).loc (Pipeline.arrRef spec0 2))) (t : Fin cfg0.N)
    (r : Fin 512) (k : Fin 128) :
    ((cfg0.win 2).blk t).view.read (Elt Ideal) A (ix2 r k) = A (ix2 r k) := by
  show A (((cfg0.win 2).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_2.index t (0 : Fin 2) * 512 + 1 * r.val = r.val; omega
  | ⟨1, _⟩ => show win0_2.index t (1 : Fin 2) * 128 + 1 * k.val = k.val; omega

/-- Window 3's block is its whole array (W_K's first 64 rows). -/
theorem read_blk3 (c : Dev nD) (A : Buf (Elt Ideal) ((c : Thread nD τ).loc (Pipeline.arrRef spec0 3))) (t : Fin cfg0.N)
    (r : Fin 64) (k : Fin 128) :
    ((cfg0.win 3).blk t).view.read (Elt Ideal) A (ix2 r k) = A (ix2 r k) := by
  show A (((cfg0.win 3).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_3.index t (0 : Fin 2) * 64 + 1 * r.val = r.val; omega
  | ⟨1, _⟩ => show win0_3.index t (1 : Fin 2) * 128 + 1 * k.val = k.val; omega

/-- Window 4's block is its whole array (W_K's last 128 rows). -/
theorem read_blk4 (c : Dev nD) (A : Buf (Elt Ideal) ((c : Thread nD τ).loc (Pipeline.arrRef spec0 4))) (t : Fin cfg0.N)
    (r : Fin 128) (k : Fin 128) :
    ((cfg0.win 4).blk t).view.read (Elt Ideal) A (ix2 r k) = A (ix2 r k) := by
  show A (((cfg0.win 4).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_4.index t (0 : Fin 2) * 128 + 1 * r.val = r.val; omega
  | ⟨1, _⟩ => show win0_4.index t (1 : Fin 2) * 128 + 1 * k.val = k.val; omega

/-- Window 5's block is its whole array (W_Q's first 64 rows). -/
theorem read_blk5 (c : Dev nD) (A : Buf (Elt Ideal) ((c : Thread nD τ).loc (Pipeline.arrRef spec0 5))) (t : Fin cfg0.N)
    (r : Fin 64) (k : Fin 128) :
    ((cfg0.win 5).blk t).view.read (Elt Ideal) A (ix2 r k) = A (ix2 r k) := by
  show A (((cfg0.win 5).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_5.index t (0 : Fin 2) * 64 + 1 * r.val = r.val; omega
  | ⟨1, _⟩ => show win0_5.index t (1 : Fin 2) * 128 + 1 * k.val = k.val; omega

/-- Window 6's block is its whole array (W_Q's last 128 rows). -/
theorem read_blk6 (c : Dev nD) (A : Buf (Elt Ideal) ((c : Thread nD τ).loc (Pipeline.arrRef spec0 6))) (t : Fin cfg0.N)
    (r : Fin 128) (k : Fin 128) :
    ((cfg0.win 6).blk t).view.read (Elt Ideal) A (ix2 r k) = A (ix2 r k) := by
  show A (((cfg0.win 6).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_6.index t (0 : Fin 2) * 128 + 1 * r.val = r.val; omega
  | ⟨1, _⟩ => show win0_6.index t (1 : Fin 2) * 128 + 1 * k.val = k.val; omega

/-- Window 7's block is its whole array (b_K as a row). -/
theorem read_blk7 (c : Dev nD) (A : Buf (Elt Ideal) ((c : Thread nD τ).loc (Pipeline.arrRef spec0 7))) (t : Fin cfg0.N)
    (r : Fin 1) (k : Fin 128) :
    ((cfg0.win 7).blk t).view.read (Elt Ideal) A (ix2 r k) = A (ix2 r k) := by
  show A (((cfg0.win 7).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_7.index t (0 : Fin 2) * 1 + 1 * r.val = r.val; omega
  | ⟨1, _⟩ => show win0_7.index t (1 : Fin 2) * 128 + 1 * k.val = k.val; omega

/-- Window 8's block is its whole array (b_Q as a row). -/
theorem read_blk8 (c : Dev nD) (A : Buf (Elt Ideal) ((c : Thread nD τ).loc (Pipeline.arrRef spec0 8))) (t : Fin cfg0.N)
    (r : Fin 1) (k : Fin 128) :
    ((cfg0.win 8).blk t).view.read (Elt Ideal) A (ix2 r k) = A (ix2 r k) := by
  show A (((cfg0.win 8).blk t).view.emb (ix2 r k)) = _
  refine congrArg A (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show win0_8.index t (0 : Fin 2) * 1 + 1 * r.val = r.val; omega
  | ⟨1, _⟩ => show win0_8.index t (1 : Fin 2) * 128 + 1 * k.val = k.val; omega

/-! ## The input blocks, as entries of the arguments -/

/-- Row p of agg's block at point t is row 4000·t + p of agg as the region finds it. -/
theorem blk_agg (c : Dev nD) (t : Fin cfg0.N) (p : Fin 4000) (k : Fin 64) :
    iblk m c 0 t (ix2 p k)
      = V m c (Pipeline.arrRef spec0 0) (ix2 ⟨4000 * t.val + p.val, by have := point_lt t; have := p.isLt; omega⟩ k) := by
  unfold iblk
  exact read_blk0 c _ t p k

/-- Row p of the graph numbers' block at point t is batch[4000·t + p]. -/
theorem blk_batch (c : Dev nD) (t : Fin cfg0.N) (p : Fin 4000) :
    iblk m c 1 t (ix2 p (0 : Fin 1))
      = m ((c : Thread nD τ).loc main_arg4) (ix1 ⟨4000 * t.val + p.val, by have := point_lt t; have := p.isLt; omega⟩) := by
  unfold iblk
  rw [read_blk1 c _ t p (0 : Fin 1), found_batch]
  exact column_apply _ _

/-- The table's block is u. -/
theorem blk_u (c : Dev nD) (t : Fin cfg0.N) (r : Fin 512) (k : Fin 128) :
    iblk m c 2 t (ix2 r k) = m ((c : Thread nD τ).loc main_arg3) (ix2 r k) := by
  unfold iblk
  rw [read_blk2 c _ t r k, found_u]

/-- The weight parts' blocks are the rows of W_K and of W_Q. -/
theorem blk_wkx (c : Dev nD) (t : Fin cfg0.N) (k : Fin 64) (q : Fin 128) :
    iblk m c 3 t (ix2 k q) = m ((c : Thread nD τ).loc main_arg5) (ix2 (Cert.Heads.lo k) q) := by
  unfold iblk
  rw [read_blk3 c _ t k q, found_wkx]
  exact rows_lo_apply _ k q
theorem blk_wku (c : Dev nD) (t : Fin cfg0.N) (k : Fin 128) (q : Fin 128) :
    iblk m c 4 t (ix2 k q) = m ((c : Thread nD τ).loc main_arg5) (ix2 (Cert.Heads.hi k) q) := by
  unfold iblk
  rw [read_blk4 c _ t k q, found_wku]
  exact rows_hi_apply _ k q
theorem blk_wqx (c : Dev nD) (t : Fin cfg0.N) (k : Fin 64) (q : Fin 128) :
    iblk m c 5 t (ix2 k q) = m ((c : Thread nD τ).loc main_arg7) (ix2 (Cert.Heads.lo k) q) := by
  unfold iblk
  rw [read_blk5 c _ t k q, found_wqx]
  exact rows_lo_apply _ k q
theorem blk_wqu (c : Dev nD) (t : Fin cfg0.N) (k : Fin 128) (q : Fin 128) :
    iblk m c 6 t (ix2 k q) = m ((c : Thread nD τ).loc main_arg7) (ix2 (Cert.Heads.hi k) q) := by
  unfold iblk
  rw [read_blk6 c _ t k q, found_wqu]
  exact rows_hi_apply _ k q

/-- The bias rows' blocks are the bias vectors. -/
theorem blk_bk (c : Dev nD) (t : Fin cfg0.N) (q : Fin 128) :
    iblk m c 7 t (ix2 (0 : Fin 1) q) = m ((c : Thread nD τ).loc main_arg6) (ix1 q) := by
  unfold iblk
  rw [read_blk7 c _ t (0 : Fin 1) q, found_bk]
  exact shapeCast_a_1a_apply _ shapeCasts_S128_S1x128 (0 : Fin 1) q
theorem blk_bq (c : Dev nD) (t : Fin cfg0.N) (q : Fin 128) :
    iblk m c 8 t (ix2 (0 : Fin 1) q) = m ((c : Thread nD τ).loc main_arg8) (ix1 q) := by
  unfold iblk
  rw [read_blk8 c _ t (0 : Fin 1) q, found_bq]
  exact shapeCast_a_1a_apply _ shapeCasts_S128_S1x128 (0 : Fin 1) q

end Cert.KernelIdeal.Heads

end
-- ==== Proof.KernelValue.lean ====
/-
  The kernel's two result arrays are the linear heads.

  What grid point t writes back to a result is, entry by entry, the head at rows 4000·t … 4000·t + 3999 (the body's
  entry at (p, q) is the head at (4000·t + p, q): Payload, over the blocks read in KernelBlocks), that is, block t of the
  head taken over the whole arrays.  Row r lies in the block of point r / 4000, so the 25 blocks cover the array and each
  result ends as the head, everywhere.
-/
import proofs.«422873_j24472723652617_2_alg».proof.Proof.KernelBlocks

set_option maxRecDepth 16384

noncomputable section

namespace Cert.KernelIdeal.Heads

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The first head (K) of the arrays the region finds and the arguments. -/
def headK (c : Dev nD) : S100000x128.Idx → EReal :=
  Cert.Heads.head (V m c (Pipeline.arrRef spec0 0))
    (Cert.Heads.rowsOf (m ((c : Thread nD τ).loc main_arg3)) (m ((c : Thread nD τ).loc main_arg4)))
    (m ((c : Thread nD τ).loc main_arg5)) (m ((c : Thread nD τ).loc main_arg6))

/-- The second head (Q). -/
def headQ (c : Dev nD) : S100000x128.Idx → EReal :=
  Cert.Heads.head (V m c (Pipeline.arrRef spec0 0))
    (Cert.Heads.rowsOf (m ((c : Thread nD τ).loc main_arg3)) (m ((c : Thread nD τ).loc main_arg4)))
    (m ((c : Thread nD τ).loc main_arg7)) (m ((c : Thread nD τ).loc main_arg8))

theorem origin : (![0, 0] : Fin 2 → Nat) = fun _ => 0 := funext fun a => by fin_cases a <;> rfl

/-- The body's entry at a block index y, as the head's at the row and column y names (Payload's statement at y). -/
theorem entry_at (x0 : Vec Ideal S4000x64 .f32) (x1 : Vec Ideal S4000x1 .i32) (x2 : Vec Ideal S512x128 .bf16)
    (wx : Vec Ideal S64x128 .bf16) (wu : Vec Ideal S128x128 .bf16) (bb : Vec Ideal S1x128 .f32)
    (agg : FVec Ideal ⟨2, ![100000, 64]⟩ .f32) (batch : IVec ⟨1, ![100000]⟩ 32) (u : FVec Ideal ⟨2, ![512, 128]⟩ .f32)
    (W : FVec Ideal ⟨2, ![192, 128]⟩ .f32) (b : FVec Ideal ⟨1, ![128]⟩ .f32)
    (row : ℕ) (hrow : row + 4000 ≤ 100000)
    (h0 : ∀ (p : Fin 4000) (k : Fin 64), x0 (ix2 p k) = agg (ix2 ⟨row + p.val, by have := p.isLt; omega⟩ k))
    (h1 : ∀ p : Fin 4000, x1 (ix2 p (0 : Fin 1)) = batch (ix1 ⟨row + p.val, by have := p.isLt; omega⟩))
    (h2 : ∀ (r : Fin 512) (k : Fin 128), x2 (ix2 r k) = u (ix2 r k))
    (h3 : ∀ (k : Fin 64) (q : Fin 128), wx (ix2 k q) = W (ix2 (Cert.Heads.lo k) q))
    (h4 : ∀ (k : Fin 128) (q : Fin 128), wu (ix2 k q) = W (ix2 (Cert.Heads.hi k) q))
    (h7 : ∀ q : Fin 128, bb (ix2 (0 : Fin 1) q) = b (ix1 q))
    (hb : ∀ i, (batch i).toNat < 512) (H : S100000x128.Idx → EReal)
    (hH : H = Cert.Heads.head agg (Cert.Heads.rowsOf u batch) W b) (y : S4000x128.Idx) :
    k0_pay4 (F := Ideal) x1 x2 x0 wx wu bb y
      = H (ix2 ⟨row + (y 0).val, by have := (y 0).isLt; have e : S4000x128.size 0 = 4000 := rfl; omega⟩ (y 1)) := by
  subst hH
  exact (congrArg (k0_pay4 (F := Ideal) x1 x2 x0 wx wu bb) (eq_ix2 y)).trans
    (pay4_eq_head x0 x1 x2 wx wu bb agg batch u W b row hrow h0 h1 h2 h3 h4 h7 hb (y 0) (y 1))

/-! ## Result 0 (window 9) -/

/-- If the body leaves X in result window 9's buffer at point t and X at (p, q) is H at (4000·t + p, q), then what the
    point writes back is block t of H. -/
theorem write_back9 (H : S100000x128.Idx → EReal) (X : S4000x128.Idx → EReal) (t : Fin cfg0.N)
    (hX : ∀ y : S4000x128.Idx, X y = H (ix2 ⟨4000 * t.val + (y 0).val,
      by have := point_lt t; have := (y 0).isLt; have e : S4000x128.size 0 = 4000 := rfl; omega⟩ (y 1))) :
    (cfg0.win 9).cut (grid0.coords t) X = ((cfg0.win 9).blk t).view.read (Elt Ideal) H := by
  funext y
  show X ((cfg0.win 9).xinj (grid0.coords t) y) = H (((cfg0.win 9).blk t).view.emb y)
  rw [hX]
  refine congrArg H (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show 4000 * t.val + (y 0).val = win0_9.index t (0 : Fin 2) * 4000 + 1 * (y 0).val; omega
  | ⟨1, _⟩ => show (y 1).val = win0_9.index t (1 : Fin 2) * 128 + 1 * (y 1).val; omega

/-- WHAT POINT t WRITES BACK to the first result is block t of the head K. -/
theorem flushed9_eq (c : Dev nD) (hb : ∀ i : S100000.Idx, (m ((c : Thread nD τ).loc main_arg4) i).toNat < 512) (t : Fin cfg0.N) :
    (dats m 0 c).flushed 9 t = ((cfg0.win 9).blk t).view.read (Elt Ideal) (headK m c) := by
  rw [flushed9]
  unfold out0_9
  rw [View.canon_unit_zero origin]
  simp only [View.ld_unit_zero (S := S4000x1) origin, View.ld_unit_zero (S := S512x128) origin,
    View.ld_unit_zero (S := S4000x64) origin, View.ld_unit_zero (S := S64x128) origin,
    View.ld_unit_zero (S := S128x128) origin, View.ld_unit_zero (S := S1x128) origin]
  exact write_back9 (headK m c) _ t
    (entry_at (iblk m c 0 t) (iblk m c 1 t) (iblk m c 2 t) (iblk m c 3 t) (iblk m c 4 t) (iblk m c 7 t)
      (V m c (Pipeline.arrRef spec0 0)) (m ((c : Thread nD τ).loc main_arg4)) (m ((c : Thread nD τ).loc main_arg3))
      (m ((c : Thread nD τ).loc main_arg5)) (m ((c : Thread nD τ).loc main_arg6)) (4000 * t.val)
      (by have := point_lt t; omega) (blk_agg m c t) (blk_batch m c t) (blk_u m c t) (blk_wkx m c t) (blk_wku m c t)
      (blk_bk m c t) hb (headK m c) rfl)

/-- An index of the array is in point t's block iff each coordinate is in the block's range on its axis. -/
theorem mem_blk9 (t : Fin cfg0.N) (i : S100000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v28_0).slice (win0_9.rect t)).set ↔ _
  rw [View.set_slice_whole, Rect.mem_set_unit]
  exact Iff.rfl

/-- Every index of the first result is in the block of the point its row falls in. -/
theorem cover9 (i : S100000x128.Idx) : ∃ t : Fin cfg0.N, (cfg0.win 9).flush t = true ∧ i ∈ ((cfg0.win 9).blk t).view.set := by
  have hi0 : (i 0).val < 100000 := (i 0).isLt
  have hi1 : (i 1).val < 128 := (i 1).isLt
  refine ⟨⟨(i 0).val / 4000, lt_of_lt_of_eq (by omega : (i 0).val / 4000 < 25) N_0.symm⟩, flush0_9 _, ?_⟩
  rw [mem_blk9]
  obtain ⟨e0_0, e0_1, e1_0, e1_1, e2_0, e2_1, e3_0, e3_1, e4_0, e4_1, e5_0, e5_1, e6_0, e6_1, e7_0, e7_1, e8_0, e8_1, e9_0, e9_1, e10_0, e10_1⟩ :=
    idx_facts ⟨(i 0).val / 4000, lt_of_lt_of_eq (by omega : (i 0).val / 4000 < 25) N_0.symm⟩
  intro a
  match a with
  | ⟨0, _⟩ =>
    show win0_9.index _ (0 : Fin 2) * 4000 ≤ (i 0).val ∧ (i 0).val < win0_9.index _ (0 : Fin 2) * 4000 + 4000
    rw [e9_0]
    show (i 0).val / 4000 * 4000 ≤ (i 0).val ∧ (i 0).val < (i 0).val / 4000 * 4000 + 4000
    omega
  | ⟨1, _⟩ =>
    show win0_9.index _ (1 : Fin 2) * 128 ≤ (i 1).val ∧ (i 1).val < win0_9.index _ (1 : Fin 2) * 128 + 128
    rw [e9_1]
    omega

/-- THE FIRST RESULT after the run is the head K. -/
theorem final9 (c : Dev nD) (hb : ∀ i : S100000.Idx, (m ((c : Thread nD τ).loc main_arg4) i).toNat < 512) :
    (dats m 0 c).arrAt 9 cfg0.N = headK m c :=
  (dats m 0 c).arrAt_eq_of_cover 9 (headK m c) (fun t _ => flushed9_eq m c hb t) cover9

/-! ## Result 1 (window 10) -/

/-- If the body leaves X in result window 10's buffer at point t and X at (p, q) is H at (4000·t + p, q), then what the
    point writes back is block t of H. -/
theorem write_back10 (H : S100000x128.Idx → EReal) (X : S4000x128.Idx → EReal) (t : Fin cfg0.N)
    (hX : ∀ y : S4000x128.Idx, X y = H (ix2 ⟨4000 * t.val + (y 0).val,
      by have := point_lt t; have := (y 0).isLt; have e : S4000x128.size 0 = 4000 := rfl; omega⟩ (y 1))) :
    (cfg0.win 10).cut (grid0.coords t) X = ((cfg0.win 10).blk t).view.read (Elt Ideal) H := by
  funext y
  show X ((cfg0.win 10).xinj (grid0.coords t) y) = H (((cfg0.win 10).blk t).view.emb y)
  rw [hX]
  refine congrArg H (funext fun a => Fin.ext ?_)
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  match a with
  | ⟨0, _⟩ => show 4000 * t.val + (y 0).val = win0_10.index t (0 : Fin 2) * 4000 + 1 * (y 0).val; omega
  | ⟨1, _⟩ => show (y 1).val = win0_10.index t (1 : Fin 2) * 128 + 1 * (y 1).val; omega

/-- WHAT POINT t WRITES BACK to the second result is block t of the head Q. -/
theorem flushed10_eq (c : Dev nD) (hb : ∀ i : S100000.Idx, (m ((c : Thread nD τ).loc main_arg4) i).toNat < 512) (t : Fin cfg0.N) :
    (dats m 0 c).flushed 10 t = ((cfg0.win 10).blk t).view.read (Elt Ideal) (headQ m c) := by
  rw [flushed10]
  unfold out0_10
  rw [View.canon_unit_zero origin]
  simp only [View.ld_unit_zero (S := S4000x1) origin, View.ld_unit_zero (S := S512x128) origin,
    View.ld_unit_zero (S := S4000x64) origin, View.ld_unit_zero (S := S64x128) origin,
    View.ld_unit_zero (S := S128x128) origin, View.ld_unit_zero (S := S1x128) origin]
  rw [pay1_pay5_eq]
  exact write_back10 (headQ m c) _ t
    (entry_at (iblk m c 0 t) (iblk m c 1 t) (iblk m c 2 t) (iblk m c 5 t) (iblk m c 6 t) (iblk m c 8 t)
      (V m c (Pipeline.arrRef spec0 0)) (m ((c : Thread nD τ).loc main_arg4)) (m ((c : Thread nD τ).loc main_arg3))
      (m ((c : Thread nD τ).loc main_arg7)) (m ((c : Thread nD τ).loc main_arg8)) (4000 * t.val)
      (by have := point_lt t; omega) (blk_agg m c t) (blk_batch m c t) (blk_u m c t) (blk_wqx m c t) (blk_wqu m c t)
      (blk_bq m c t) hb (headQ m c) rfl)

theorem mem_blk10 (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v28_1).slice (win0_10.rect t)).set ↔ _
  rw [View.set_slice_whole, Rect.mem_set_unit]
  exact Iff.rfl

/-- Every index of the second result is in the block of the point its row falls in. -/
theorem cover10 (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  refine ⟨⟨(i 0).val / 4000, lt_of_lt_of_eq (by omega : (i 0).val / 4000 < 25) N_0.symm⟩, flush0_10 _, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1⟩ :=
    idx_facts ⟨(i 0).val / 4000, lt_of_lt_of_eq (by omega : (i 0).val / 4000 < 25) N_0.symm⟩
  intro a
  match a with
  | ⟨0, _⟩ =>
    show win0_10.index _ (0 : Fin 2) * 4000 ≤ (i 0).val ∧ (i 0).val < win0_10.index _ (0 : Fin 2) * 4000 + 4000
    rw [e10_0]
    show (i 0).val / 4000 * 4000 ≤ (i 0).val ∧ (i 0).val < (i 0).val / 4000 * 4000 + 4000
    omega
  | ⟨1, _⟩ =>
    show win0_10.index _ (1 : Fin 2) * 128 ≤ (i 1).val ∧ (i 1).val < win0_10.index _ (1 : Fin 2) * 128 + 128
    rw [e10_1]
    omega

/-- THE SECOND RESULT after the run is the head Q. -/
theorem final10 (c : Dev nD) (hb : ∀ i : S100000.Idx, (m ((c : Thread nD τ).loc main_arg4) i).toNat < 512) :
    (dats m 0 c).arrAt 10 cfg0.N = headQ m c :=
  (dats m 0 c).arrAt_eq_of_cover 10 (headQ m c) (fun t _ => flushed10_eq m c hb t) cover10

/-! ## The run -/

/-- The kernel's run with both results named: where every graph number is below 512, every weakly fair execution ends
    with the results at the two heads and the arguments as launched. -/
theorem run (hb : ∀ (c : Dev nD) (i : S100000.Idx), (m ((c : Thread nD τ).loc main_arg4) i).toNat < 512) :
    θ_run defs (onTc (τ := τ) (main (F := Ideal))) ⟨m, fun _ => 0, ρ⟩ fun r => ∀ c : Dev nD,
      r.2.mem ((c : Thread nD τ).loc main_v28_0) = headK m c
      ∧ r.2.mem ((c : Thread nD τ).loc main_v28_1) = headQ m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c (hb c)), (h c).2.1.trans (final10 m c (hb c)), (h c).2.2⟩)
    (run_blocks m ρ)

end Cert.KernelIdeal.Heads

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.RefValue.lean ====
/-
  The reference's two results are the linear heads.

  The reference gathers the rows u[batch[n]] (a negative number counted from the end of the table, the start index held
  inside the table), joins them to agg along the feature axis and multiplies the 100000 × 192 result into W, then adds
  the bias.  Where every batch[n] lies in [0, 512) no number is negative and none is out of the table, so the gathered
  row is row batch[n] itself; the contraction over the 192 joined columns is the sum over agg's 64 columns plus the sum
  over the gathered row's 128 columns (Spec: a sum over 192 indices splits into its first 64 and its last 128).
-/
import proofs.«422873_j24472723652617_2_alg».proof.Proof.Gen.ReferenceIdeal.Read
import proofs.«422873_j24472723652617_2_alg».proof.Proof.Spec
import proofs.«422873_j24472723652617_2_alg».proof.Proof.LibGatherRows
import Idealize.ShloMosaic.Lib.Pipeline.Value
import Idealize.ShloMosaic.Lib.ValueIdx
import Idealize.ShloMosaic.Lib.StableHlo.Predicate

noncomputable section

namespace Cert.ReferenceIdeal.Heads

open Cert.ReferenceIdeal Cert.ReferenceIdeal.Gen Cert.ReferenceIdeal.Read Idealize.ShloMosaic Idealize.ShloMosaic.ValueIdx

/-- A graph number in [0, 512) is not negative, so the reference's "count from the end" leaves it as it is. -/
theorem wrapped_eq (x4 : IVec S100000 32) (n : Fin 100000) (hb : (x4 (ix1 n)).toNat < 512) :
    val_main_v21 (F := Ideal) x4 (ix2 n (0 : Fin 1)) = x4 (ix1 n) := by
  rw [val_main_v21_apply]
  have e : idx_main_v21 (ix2 n (0 : Fin 1)) = ix1 n := funext fun a => Fin.ext (by match a with | ⟨0, _⟩ => rfl)
  rw [e, val_main_v20_apply, val_main_v17_apply]
  have hneg : ¬ IntOp.cmpi .slt (x4 (ix1 n)) (val_main_v16 (F := Ideal) (ix1 n)) = 1#1 := by
    rw [val_main_v16_apply, val_main_c_1_apply, IntOp.cmpi_slt]
    have h0 : (0#32 : BitVec 32).toInt = 0 := by decide
    rw [h0, StableHlo.Predicate.toInt_eq_toNat_of_lt (by omega)]
    omega
  rw [eq_zero_of_ne_one hneg, select_zero]

/-- The gathered rows are the rows of u the graph numbers name. -/
theorem gathered_eq (x3 : FVec Ideal S512x128 .f32) (x4 : IVec S100000 32) (hb : ∀ i : S100000.Idx, (x4 i).toNat < 512)
    (n : Fin 100000) (k : Fin 128) :
    val_main_v22 (F := Ideal) x3 x4 (ix2 n k) = Cert.Heads.rowsOf x3 x4 (ix2 n k) := by
  unfold val_main_v22
  refine (GatherRows.gather_rows_apply (N := 512) (C := 128) (n := 100000) (by omega)
    gather_S512x128_S100000x1_S100000x128_1_0_n_n_0_1_1128_wf x3 (val_main_v21 (F := Ideal) x4) n k).trans ?_
  unfold Cert.Heads.rowsOf
  refine congrArg x3 (funext fun a => Fin.ext ?_)
  match a with
  | ⟨0, _⟩ =>
    show min (val_main_v21 (F := Ideal) x4 (ix2 n ⟨0, Nat.one_pos⟩)).toInt.toNat (512 - 1) = min (x4 (ix1 n)).toNat 511
    rw [show (ix2 n (⟨0, Nat.one_pos⟩ : Fin 1)) = ix2 n (0 : Fin 1) from rfl, wrapped_eq x4 n (hb _),
      StableHlo.Predicate.toInt_eq_toNat_of_lt (by have := hb (ix1 n); omega)]
    rfl
  | ⟨1, _⟩ => rfl

/-- The joined features at a column of the first 64 are agg's. -/
theorem joined_lo (x0 : FVec Ideal S100000x64 .f32) (x1 : IVec S2x3200000 32) (x2 : FVec Ideal S3200000x1 .f32)
    (x3 : FVec Ideal S512x128 .f32) (x4 : IVec S100000 32) (n : Fin 100000) (q : Fin 128) (k : Fin 64) :
    val_main_v23 (F := Ideal) x0 x1 x2 x3 x4 (lidx_main_v24 (ix2 n q) (Cert.Heads.lo k)) = val_main_v15 (F := Ideal) x0 x1 x2 (ix2 n k) := by
  unfold val_main_v23
  refine concatenate_pair_apply_left (1 : Fin S100000x192.rank) _ _ concatenates_S100000x64_S100000x128_S100000x192_d1 _ rfl (ix2 n k) fun b => ?_
  match b with
  | ⟨0, _⟩ => rfl
  | ⟨1, _⟩ => rfl

/-- The joined features at a column of the last 128 are the gathered row's. -/
theorem joined_hi (x0 : FVec Ideal S100000x64 .f32) (x1 : IVec S2x3200000 32) (x2 : FVec Ideal S3200000x1 .f32)
    (x3 : FVec Ideal S512x128 .f32) (x4 : IVec S100000 32) (n : Fin 100000) (q : Fin 128) (k : Fin 128) :
    val_main_v23 (F := Ideal) x0 x1 x2 x3 x4 (lidx_main_v24 (ix2 n q) (Cert.Heads.hi k)) = val_main_v22 (F := Ideal) x3 x4 (ix2 n k) := by
  unfold val_main_v23
  refine concatenate_pair_apply_right (1 : Fin S100000x192.rank) _ _ concatenates_S100000x64_S100000x128_S100000x192_d1 _ rfl rfl (ix2 n k)
    (fun b hb => ?_) ?_
  · match b with
    | ⟨0, _⟩ => rfl
    | ⟨1, _⟩ => exact absurd rfl hb
  · show k.val + 64 = 64 + k.val
    omega

/-- The weight's entry the contraction reads at index k of the joined axis, and the bias's entry at column q. -/
theorem weight_idx (n : Fin 100000) (q : Fin 128) (k : Fin 192) : ridx_main_v24 (ix2 n q) k = ix2 k q :=
  funext fun a => Fin.ext (by match a with | ⟨0, _⟩ => rfl | ⟨1, _⟩ => rfl)
theorem bias_idx (n : Fin 100000) (q : Fin 128) : idx_main_v25 (idx_main_v26 (ix2 n q)) = ix1 q :=
  funext fun a => Fin.ext (by match a with | ⟨0, _⟩ => rfl)

/-- ONE HEAD OF THE REFERENCE: the joined features times W plus the bias is the head of agg and the named rows of u. -/
theorem head_of_ref (x0 : FVec Ideal S100000x64 .f32) (x1 : IVec S2x3200000 32) (x2 : FVec Ideal S3200000x1 .f32)
    (x3 : FVec Ideal S512x128 .f32) (x4 : IVec S100000 32) (x5 : FVec Ideal S192x128 .f32) (x6 : FVec Ideal S128 .f32)
    (hb : ∀ i : S100000.Idx, (x4 i).toNat < 512) :
    val_main_v27 (F := Ideal) x0 x1 x2 x3 x4 x5 x6
      = Cert.Heads.head (val_main_v15 (F := Ideal) x0 x1 x2) (Cert.Heads.rowsOf x3 x4) x5 x6 := by
  funext j
  obtain ⟨n, q, rfl⟩ : ∃ (n : Fin 100000) (q : Fin 128), j = ix2 n q := ⟨j 0, j 1, eq_ix2 j⟩
  rw [val_main_v27_apply, val_main_v24_apply, val_main_v26_apply, val_main_v25_apply, Cert.Heads.sum_split]
  rw [Cert.Heads.head_apply, bias_idx]
  show (∑ k : Fin 64, _ * _ + ∑ k : Fin 128, _ * _) + _ = _
  refine congrArg₂ (· + ·) (congrArg₂ (· + ·) (Finset.sum_congr rfl fun k _ => ?_) (Finset.sum_congr rfl fun k _ => ?_)) rfl
  · exact congrArg₂ (· * ·) (joined_lo x0 x1 x2 x3 x4 n q k) (congrArg x5 (weight_idx n q (Cert.Heads.lo k)))
  · exact congrArg₂ (· * ·) ((joined_hi x0 x1 x2 x3 x4 n q k).trans (gathered_eq x3 x4 hb n k))
      (congrArg x5 (weight_idx n q (Cert.Heads.hi k)))

/-- The second head reads the same joined features (the run's term for it is the first's with the other weight and bias). -/
theorem second_eq (x0 : FVec Ideal S100000x64 .f32) (x1 : IVec S2x3200000 32) (x2 : FVec Ideal S3200000x1 .f32)
    (x3 : FVec Ideal S512x128 .f32) (x4 : IVec S100000 32) (x7 : FVec Ideal S192x128 .f32) (x8 : FVec Ideal S128 .f32) :
    val_main_v31 (F := Ideal) x0 x1 x2 x3 x4 x7 x8 = val_main_v27 (F := Ideal) x0 x1 x2 x3 x4 x7 x8 := rfl

end Cert.ReferenceIdeal.Heads

end
-- ==== Proof.lean ====
/-
  A fused kernel for the two linear heads of a graph-network node model, against its jnp reference, over the extended reals.

  Both programs first form agg, the per-node sum of the neighbour features scaled by the edge weights, by the same host
  operations on the same arguments.  The reference then takes the rows u[batch[n]], joins [agg | u[batch]] and computes
  K = [agg | u[batch]] · W_K + b_K and Q likewise.  The kernel never joins anything: for each block of 4000 nodes it
  multiplies the indicator matrix [batch[n] = c] into u to obtain the rows u[batch[n]], multiplies agg's block into the
  first 64 rows of the weight and the obtained rows into its last 128 rows, adds the two products and the bias.

  The two agree where every graph number batch[n] lies in [0, 512), the rows of u — the precondition's last two
  conjuncts (outside that range the indicator row is zero, while the reference counts a negative number from the end and
  holds a large one at the last row).  There the indicator product is the row itself (0 · x = 0, 1 · x = x), a
  contraction over the 192 joined columns is the sum of the contractions over its 64 and its 128 columns, and both
  programs end with each result equal, entry by entry, to

      (Σ_{k<64} agg[n,k] · W[k,j] + Σ_{k<128} u[batch[n],k] · W[64+k,j]) + b[j].

  No finiteness of the float inputs is used.  The frames of the two kernel programs are the generated ones; the
  reference's is its generated run with the results dropped; the idealization rewrote nothing.
-/
import proofs.«422873_j24472723652617_2_alg».proof.Defs
import proofs.«422873_j24472723652617_2_alg».proof.Proof.Gen.Kernel
import proofs.«422873_j24472723652617_2_alg».proof.Proof.Gen.Kernel.Skeleton
import proofs.«422873_j24472723652617_2_alg».proof.Proof.Gen.Kernel.Launch
import proofs.«422873_j24472723652617_2_alg».proof.Proof.Gen.Kernel.Points
import proofs.«422873_j24472723652617_2_alg».proof.Proof.Gen.Kernel.Frame
import proofs.«422873_j24472723652617_2_alg».proof.Proof.Gen.KernelIdeal
import proofs.«422873_j24472723652617_2_alg».proof.Proof.Gen.KernelIdeal.Skeleton
import proofs.«422873_j24472723652617_2_alg».proof.Proof.Gen.KernelIdeal.Launch
import proofs.«422873_j24472723652617_2_alg».proof.Proof.Gen.KernelIdeal.Points
import proofs.«422873_j24472723652617_2_alg».proof.Proof.Gen.KernelIdeal.Frame
import proofs.«422873_j24472723652617_2_alg».proof.Proof.Gen.ReferenceIdeal
import proofs.«422873_j24472723652617_2_alg».proof.Proof.Gen.KernelIdeal.Value
import proofs.«422873_j24472723652617_2_alg».proof.Proof.Gen.ReferenceIdeal.Run
import proofs.«422873_j24472723652617_2_alg».proof.Proof.Gen.ReferenceIdeal.Read
import proofs.«422873_j24472723652617_2_alg».proof.Proof.Gen.Pre_finite_inputs
import proofs.«422873_j24472723652617_2_alg».proof.Proof.Range
import proofs.«422873_j24472723652617_2_alg».proof.Proof.KernelValue
import proofs.«422873_j24472723652617_2_alg».proof.Proof.RefValue
import Idealize.ShloMosaic.Adequacy
import Idealize.ShloMosaic.Init
import Idealize.ShloMosaic.Lib.StableHlo.Run

set_option maxRecDepth 16384

noncomputable section

namespace Cert.Proof

open Idealize.ShloMosaic Idealize.ShloMosaic.TcCoe Idealize.SL.Sem Idealize.ShloMosaic.StableHlo

/-! ## The same agg on both sides -/

set_option maxHeartbeats 1000000 in
/-- The array agg the kernel's region finds is the reference's agg of the same arguments: the two programs' host
    operations up to it are the same operations. -/
theorem agg_eq (m : (ℓ : Loc Cert.KernelIdeal.nD Cert.KernelIdeal.τ Cert.KernelIdeal.sig) → Buf (Elt Ideal) ℓ)
    (c : Dev Cert.KernelIdeal.nD) :
    Cert.KernelIdeal.Gen.V m c (Pipeline.arrRef Cert.KernelIdeal.spec0 0)
      = Cert.ReferenceIdeal.Read.val_main_v15 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2)) := by
  show (Cert.KernelIdeal.Gen.V m c Cert.KernelIdeal.main_v15 : Cert.KernelIdeal.S100000x64.Idx → EReal) = _
  dsimp only [Cert.KernelIdeal.Gen.V, Cert.KernelIdeal.Gen.hostOps0]
  after_results_simp
  rfl

/-- The reference's first result, of the kernel's arguments, is the kernel's head K. -/
theorem ref_K (m : (ℓ : Loc Cert.KernelIdeal.nD Cert.KernelIdeal.τ Cert.KernelIdeal.sig) → Buf (Elt Ideal) ℓ)
    (c : Dev Cert.KernelIdeal.nD)
    (hb : ∀ i : Cert.KernelIdeal.S100000.Idx, (m ((c : Thread Cert.KernelIdeal.nD Cert.KernelIdeal.τ).loc Cert.KernelIdeal.main_arg4) i).toNat < 512) :
    Cert.ReferenceIdeal.Read.val_main_v27 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg5))
        (m ((c : Thread Cert.KernelIdeal.nD Cert.KernelIdeal.τ).loc Cert.KernelIdeal.main_arg6))
      = Cert.KernelIdeal.Heads.headK m c := by
  rw [Cert.ReferenceIdeal.Heads.head_of_ref _ _ _ _ _ _ _ hb]
  unfold Cert.KernelIdeal.Heads.headK
  rw [agg_eq m c]

/-- The reference's second result is the kernel's head Q. -/
theorem ref_Q (m : (ℓ : Loc Cert.KernelIdeal.nD Cert.KernelIdeal.τ Cert.KernelIdeal.sig) → Buf (Elt Ideal) ℓ)
    (c : Dev Cert.KernelIdeal.nD)
    (hb : ∀ i : Cert.KernelIdeal.S100000.Idx, (m ((c : Thread Cert.KernelIdeal.nD Cert.KernelIdeal.τ).loc Cert.KernelIdeal.main_arg4) i).toNat < 512) :
    Cert.ReferenceIdeal.Read.val_main_v31 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
        (m ((c : Thread Cert.KernelIdeal.nD Cert.KernelIdeal.τ).loc Cert.KernelIdeal.main_arg7))
        (m ((c : Thread Cert.KernelIdeal.nD Cert.KernelIdeal.τ).loc Cert.KernelIdeal.main_arg8))
      = Cert.KernelIdeal.Heads.headQ m c := by
  rw [Cert.ReferenceIdeal.Heads.second_eq, Cert.ReferenceIdeal.Heads.head_of_ref _ _ _ _ _ _ _ hb]
  unfold Cert.KernelIdeal.Heads.headQ
  rw [agg_eq m c]

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, with every graph number in [0, 512): both programs end with the two
    heads of the kernel's arguments. -/
theorem algebraic : Cert.algebraic_KernelIdeal_ReferenceIdeal := by
  intro m ρ m' ρ' hpre hagree
  have hb : ∀ (c : Dev Cert.KernelIdeal.nD) (i : Cert.KernelIdeal.S100000.Idx),
      (m ((c : Thread Cert.KernelIdeal.nD Cert.KernelIdeal.τ).loc Cert.KernelIdeal.main_arg4) i).toNat < 512 :=
    fun c i => Cert.Heads.batch_lt _ _ _ _ _ _ _ _ _ (hpre c) i
  refine ⟨fun c => Cert.KernelIdeal.Heads.headK m c, fun c => Cert.KernelIdeal.Heads.headQ m c,
    Cert.KernelIdeal.Heads.run m ρ hb, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, (hagree c).1, (hagree c).2.1, (hagree c).2.2.1, (hagree c).2.2.2.1,
      (hagree c).2.2.2.2.1, (hagree c).2.2.2.2.2.1, (hagree c).2.2.2.2.2.2.1]
    exact ref_K m c (hb c)
  · rw [Cert.ReferenceIdeal.Read.val_main_v31_eq, (hagree c).1, (hagree c).2.1, (hagree c).2.2.1, (hagree c).2.2.2.1,
      (hagree c).2.2.2.2.1, (hagree c).2.2.2.2.2.2.2.1, (hagree c).2.2.2.2.2.2.2.2]
    exact ref_Q m c (hb c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
